-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S2x1048576 : Shape := ⟨2, ![2, 1048576]⟩
abbrev S3x3 : Shape := ⟨2, ![3, 3]⟩
abbrev S3 : Shape := ⟨1, ![3]⟩
abbrev S3x128 : Shape := ⟨2, ![3, 128]⟩
abbrev S128 : Shape := ⟨1, ![128]⟩
abbrev S32768x512 : Shape := ⟨2, ![32768, 512]⟩
abbrev S512 : Shape := ⟨1, ![512]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S32768x512 : S_.BroadcastsInDim S32768x512 (![] : Fin 0 → Fin S32768x512.rank)
  reducesTo_S32768x512_S_d0_1 : S32768x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S128 .f32) (main_arg6 : FVec F S32768x512 .f32) (main_arg7 : FVec F S512 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32768x512 .f32 := Host.absf main_arg6
  let main_cst_8 : FVec F S_ .f32 := constant S_ .f32 0x7F800000#32
  let main_v25 : FVec F S32768x512 .f32 := broadcastInDim S32768x512 ![] bcast_S_S32768x512 main_cst_8
  let main_v26 : IVec S32768x512 1 := cmpf .olt main_v24 main_v25
  let main_c_9 : IVec S_ 1 := constantI S_ 1 1#1
  let main_v27 : IVec S_ 1 := (fun x v => Host.reduce IntOp.andi x v reducesTo_S32768x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S65536x3 .f32) (main_arg1 : IVec S2x1048576 32) (main_arg2 : FVec F S3x3 .f32) (main_arg3 : FVec F S3 .f32) (main_arg4 : FVec F S3x128 .f32) (main_arg5 : FVec F S128 .f32) (main_arg6 : FVec F S32768x512 .f32) (main_arg7 : FVec F S512 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S3x3 .f32 := Host.absf main_arg2
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_v13 main_v16
-- ==== Kernel.lean ====
abbrev S65536x3 : Shape := ⟨2, ![65536, 3]⟩
abbrev S2x1048576 : Shape := ⟨2, ![2, 1048576]⟩
abbrev S3x3 : Shape := ⟨2, ![3, 3]⟩
abbrev S3 : Shape := ⟨1, ![3]⟩
abbrev S3x128 : Shape := ⟨2, ![3, 128]⟩
abbrev S128 : Shape := ⟨1, ![128]⟩
abbrev S32768x512 : Shape := ⟨2, ![32768, 512]⟩
abbrev S512 : Shape := ⟨1, ![512]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1114112x3 : Shape := ⟨2, ![1114112, 3]⟩
abbrev S1x3 : Shape := ⟨2, ![1, 3]⟩
abbrev S65536x128 : Shape := ⟨2, ![65536, 128]⟩
abbrev S1114112x128 : Shape := ⟨2, ![1114112, 128]⟩
abbrev S1x128 : Shape := ⟨2, ![1, 128]⟩
abbrev S256x32768 : Shape := ⟨2, ![256, 32768]⟩
abbrev S1x512 : Shape := ⟨2, ![1, 512]⟩
abbrev S256x512 : Shape := ⟨2, ![256, 512]⟩
abbrev S256x4096 : Shape := ⟨2, ![256, 4096]⟩
abbrev S4096x512 : Shape := ⟨2, ![4096, 512]⟩

abbrev nBuf : Space → Nat
  | .hbm => 136
  | .vmem => 7
  | .smem => 0
  | _ => 0

abbrev hbmTy0_0 (i : Nat) : BufTy := match i % 128 with
  | 0 => ⟨S65536x3, .f32⟩
  | 1 => ⟨S2x1048576, .i32⟩
  | 2 => ⟨S3x3, .f32⟩
  | 3 => ⟨S3, .f32⟩
  | 4 => ⟨S3x128, .f32⟩
  | 5 => ⟨S128, .f32⟩
  | 6 => ⟨S32768x512, .f32⟩
  | 7 => ⟨S512, .f32⟩
  | 8 => ⟨S65536, .i32⟩
  | 9 => ⟨S1x1048576, .i32⟩
  | 10 => ⟨S1048576, .i32⟩
  | 11 => ⟨S1114112, .i32⟩
  | 12 => ⟨S1x1048576, .i32⟩
  | 13 => ⟨S1048576, .i32⟩
  | 14 => ⟨S1114112, .i32⟩
  | 15 => ⟨S_, .f32⟩
  | 16 => ⟨S1114112, .f32⟩
  | 17 => ⟨S_, .f32⟩
  | 18 => ⟨S65536, .f32⟩
  | 19 => ⟨S1114112x1, .i32⟩
  | 20 => ⟨S65536, .f32⟩
  | 21 => ⟨S_, .f32⟩
  | 22 => ⟨S65536, .f32⟩
  | 23 => ⟨S65536, .i1⟩
  | 24 => ⟨S65536, .f32⟩
  | 25 => ⟨S_, .f32⟩
  | 26 => ⟨S65536, .f32⟩
  | 27 => ⟨S65536, .f32⟩
  | 28 => ⟨S_, .i32⟩
  | 29 => ⟨S1114112, .i32⟩
  | 30 => ⟨S1114112, .i1⟩
  | 31 => ⟨S_, .i32⟩
  | 32 => ⟨S1114112, .i32⟩
  | 33 => ⟨S1114112, .i32⟩
  | 34 => ⟨S1114112, .i32⟩
  | 35 => ⟨S1114112x1, .i32⟩
  | 36 => ⟨S1114112, .f32⟩
  | 37 => ⟨S_, .i32⟩
  | 38 => ⟨S1114112, .i32⟩
  | 39 => ⟨S1114112, .i1⟩
  | 40 => ⟨S_, .i32⟩
  | 41 => ⟨S1114112, .i32⟩
  | 42 => ⟨S1114112, .i32⟩
  | 43 => ⟨S1114112, .i32⟩
  | 44 => ⟨S1114112x1, .i32⟩
  | 45 => ⟨S1114112, .f32⟩
  | 46 => ⟨S1114112, .f32⟩
  | 47 => ⟨S65536x3, .f32⟩
  | 48 => ⟨S_, .i32⟩
  | 49 => ⟨S1114112, .i32⟩
  | 50 => ⟨S1114112, .i1⟩
  | 51 => ⟨S_, .i32⟩
  | 52 => ⟨S1114112, .i32⟩
  | 53 => ⟨S1114112, .i32⟩
  | 54 => ⟨S1114112, .i32⟩
  | 55 => ⟨S1114112x1, .i32⟩
  | 56 => ⟨S1114112x3, .f32⟩
  | 57 => ⟨S1114112x1, .f32⟩
  | 58 => ⟨S1114112x3, .f32⟩
  | 59 => ⟨S1114112x3, .f32⟩
  | 60 => ⟨S_, .f32⟩
  | 61 => ⟨S65536x3, .f32⟩
  | 62 => ⟨S1114112x1, .i32⟩
  | 63 => ⟨S65536x3, .f32⟩
  | 64 => ⟨S1x3, .f32⟩
  | 65 => ⟨S65536x3, .f32⟩
  | 66 => ⟨S65536x3, .f32⟩
  | 67 => ⟨S_, .f32⟩
  | 68 => ⟨S65536x3, .f32⟩
  | 69 => ⟨S65536x3, .i1⟩
  | 70 => ⟨S_, .f32⟩
  | 71 => ⟨S65536x3, .f32⟩
  | 72 => ⟨S65536x3, .f32⟩
  | 73 => ⟨S65536x3, .f32⟩
  | 74 => ⟨S65536, .i32⟩
  | 75 => ⟨S1x1048576, .i32⟩
  | 76 => ⟨S1048576, .i32⟩
  | 77 => ⟨S1114112, .i32⟩
  | 78 => ⟨S1x1048576, .i32⟩
  | 79 => ⟨S1048576, .i32⟩
  | 80 => ⟨S1114112, .i32⟩
  | 81 => ⟨S_, .f32⟩
  | 82 => ⟨S1114112, .f32⟩
  | 83 => ⟨S_, .f32⟩
  | 84 => ⟨S65536, .f32⟩
  | 85 => ⟨S1114112x1, .i32⟩
  | 86 => ⟨S65536, .f32⟩
  | 87 => ⟨S_, .f32⟩
  | 88 => ⟨S65536, .f32⟩
  | 89 => ⟨S65536, .i1⟩
  | 90 => ⟨S65536, .f32⟩
  | 91 => ⟨S_, .f32⟩
  | 92 => ⟨S65536, .f32⟩
  | 93 => ⟨S65536, .f32⟩
  | 94 => ⟨S_, .i32⟩
  | 95 => ⟨S1114112, .i32⟩
  | 96 => ⟨S1114112, .i1⟩
  | 97 => ⟨S_, .i32⟩
  | 98 => ⟨S1114112, .i32⟩
  | 99 => ⟨S1114112, .i32⟩
  | 100 => ⟨S1114112, .i32⟩
  | 101 => ⟨S1114112x1, .i32⟩
  | 102 => ⟨S1114112, .f32⟩
  | 103 => ⟨S_, .i32⟩
  | 104 => ⟨S1114112, .i32⟩
  | 105 => ⟨S1114112, .i1⟩
  | 106 => ⟨S_, .i32⟩
  | 107 => ⟨S1114112, .i32⟩
  | 108 => ⟨S1114112, .i32⟩
  | 109 => ⟨S1114112, .i32⟩
  | 110 => ⟨S1114112x1, .i32⟩
  | 111 => ⟨S1114112, .f32⟩
  | 112 => ⟨S1114112, .f32⟩
  | 113 => ⟨S65536x128, .f32⟩
  | 114 => ⟨S_, .i32⟩
  | 115 => ⟨S1114112, .i32⟩
  | 116 => ⟨S1114112, .i1⟩
  | 117 => ⟨S_, .i32⟩
  | 118 => ⟨S1114112, .i32⟩
  | 119 => ⟨S1114112, .i32⟩
  | 120 => ⟨S1114112, .i32⟩
  | 121 => ⟨S1114112x1, .i32⟩
  | 122 => ⟨S1114112x128, .f32⟩
  | 123 => ⟨S1114112x1, .f32⟩
  | 124 => ⟨S1114112x128, .f32⟩
  | 125 => ⟨S1114112x128, .f32⟩
  | 126 => ⟨S_, .f32⟩
  | 127 => ⟨S65536x128, .f32⟩
  | _ => ⟨S65536x3, .f32⟩

abbrev hbmTy0_1 (i : Nat) : BufTy := match i % 128 with
  | 0 => ⟨S1114112x1, .i32⟩
  | 1 => ⟨S65536x128, .f32⟩
  | 2 => ⟨S1x128, .f32⟩
  | 3 => ⟨S65536x128, .f32⟩
  | 4 => ⟨S65536x128, .f32⟩
  | 5 => ⟨S256x32768, .f32⟩
  | 6 => ⟨S1x512, .f32⟩
  | 7 => ⟨S256x512, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_c_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_19 : Ref sig .tc := ⟨.hbm, 114, rfl⟩
abbrev main_v85 : Ref sig .tc := ⟨.hbm, 115, rfl⟩
abbrev main_v86 : Ref sig .tc := ⟨.hbm, 116, rfl⟩
abbrev main_c_20 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_21 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x3_0_1 : S1114112x1.BroadcastsInDim S1114112x3 (![0, 1] : Fin 2 → Fin S1114112x3.rank)
  bcast_S_S65536x3 : S_.BroadcastsInDim S65536x3 (![] : Fin 0 → Fin S65536x3.rank)
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S256x32768 : S65536x128.ShapeCasts S256x32768
  shapeCasts_S512_S1x512 : S512.ShapeCasts S1x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x3_S3x3_S65536x3_1_0_0_1_n_n_wf : DotDims.WF S65536x3 S3x3 S65536x3 [1] [0] [0] [1] [] []
  gather_S65536x3_S1114112x1_S1114112x3_1_0_n_n_0_1_13_wf : GatherDims.WF S65536x3 S1114112x1 S1114112x3 [1] [0] [] [0] [] 1 ![1, 3]
  scatter_S65536x3_S1114112x1_S1114112x3_1_0_0_1_wf : ScatterDims.WF S65536x3 S1114112x1 S1114112x3 [1] [0] [0] 1
  dot_S65536x3_S3x128_S65536x128_1_0_0_1_n_n_wf : DotDims.WF S65536x3 S3x128 S65536x128 [1] [0] [0] [1] [] []
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x32768.size a
  hwx0_0 : ∀ i : grid0.Coords, EltTy.bits .f32 = 32 ∨ (Rect.block (s := S256x32768) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S32768x512.size a
  hwx0_1 : ∀ i : grid0.Coords, EltTy.bits .f32 = 32 ∨ (Rect.block (s := S32768x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x3_S3x3_S65536x3_1_0_0_1_n_n : DotDims S65536x3 S3x3 S65536x3 where
  lhsContracting := [1]
  rhsContracting := [0]
  lhsNonContracting := [0]
  rhsNonContracting := [1]
  lhsBatch := []
  rhsBatch := []
  wf := dot_S65536x3_S3x3_S65536x3_1_0_0_1_n_n_wf
def gather_S65536x3_S1114112x1_S1114112x3_1_0_n_n_0_1_13 : GatherDims S65536x3 S1114112x1 S1114112x3 where
  offsetDims := [1]
  collapsedSliceDims := [0]
  operandBatchingDims := []
  startIndicesBatchingDims := []
  startIndexMap := [0]
  indexVectorDim := 1
  sliceSizes := ![1, 3]
  wf := gather_S65536x3_S1114112x1_S1114112x3_1_0_n_n_0_1_13_wf
def scatter_S65536x3_S1114112x1_S1114112x3_1_0_0_1 : ScatterDims S65536x3 S1114112x1 S1114112x3 where
  updateWindowDims := [1]
  insertedWindowDims := [0]
  scatterDimsToOperandDims := [0]
  indexVectorDim := 1
  wf := scatter_S65536x3_S1114112x1_S1114112x3_1_0_0_1_wf
def dot_S65536x3_S3x128_S65536x128_1_0_0_1_n_n : DotDims S65536x3 S3x128 S65536x128 where
  lhsContracting := [1]
  rhsContracting := [0]
  lhsNonContracting := [0]
  rhsNonContracting := [1]
  lhsBatch := []
  rhsBatch := []
  wf := dot_S65536x3_S3x128_S65536x128_1_0_0_1_n_n_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_v101) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v103) S256x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x3 : Shape := ⟨2, ![65536, 3]⟩
abbrev S2x1048576 : Shape := ⟨2, ![2, 1048576]⟩
abbrev S3x3 : Shape := ⟨2, ![3, 3]⟩
abbrev S3 : Shape := ⟨1, ![3]⟩
abbrev S3x128 : Shape := ⟨2, ![3, 128]⟩
abbrev S128 : Shape := ⟨1, ![128]⟩
abbrev S32768x512 : Shape := ⟨2, ![32768, 512]⟩
abbrev S512 : Shape := ⟨1, ![512]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1114112x3 : Shape := ⟨2, ![1114112, 3]⟩
abbrev S1x3 : Shape := ⟨2, ![1, 3]⟩
abbrev S65536x128 : Shape := ⟨2, ![65536, 128]⟩
abbrev S1114112x128 : Shape := ⟨2, ![1114112, 128]⟩
abbrev S1x128 : Shape := ⟨2, ![1, 128]⟩
abbrev S256x32768 : Shape := ⟨2, ![256, 32768]⟩
abbrev S256x512 : Shape := ⟨2, ![256, 512]⟩
abbrev S1x512 : Shape := ⟨2, ![1, 512]⟩

abbrev nBuf : Space → Nat
  | .hbm => 138
  | .vmem => 0
  | .smem => 0
  | _ => 0

abbrev hbmTy0_0 (i : Nat) : BufTy := match i % 128 with
  | 0 => ⟨S65536x3, .f32⟩
  | 1 => ⟨S2x1048576, .i32⟩
  | 2 => ⟨S3x3, .f32⟩
  | 3 => ⟨S3, .f32⟩
  | 4 => ⟨S3x128, .f32⟩
  | 5 => ⟨S128, .f32⟩
  | 6 => ⟨S32768x512, .f32⟩
  | 7 => ⟨S512, .f32⟩
  | 8 => ⟨S65536, .i32⟩
  | 9 => ⟨S1x1048576, .i32⟩
  | 10 => ⟨S1048576, .i32⟩
  | 11 => ⟨S1114112, .i32⟩
  | 12 => ⟨S1x1048576, .i32⟩
  | 13 => ⟨S1048576, .i32⟩
  | 14 => ⟨S1114112, .i32⟩
  | 15 => ⟨S_, .f32⟩
  | 16 => ⟨S1114112, .f32⟩
  | 17 => ⟨S_, .f32⟩
  | 18 => ⟨S65536, .f32⟩
  | 19 => ⟨S1114112x1, .i32⟩
  | 20 => ⟨S65536, .f32⟩
  | 21 => ⟨S_, .f32⟩
  | 22 => ⟨S65536, .f32⟩
  | 23 => ⟨S65536, .i1⟩
  | 24 => ⟨S65536, .f32⟩
  | 25 => ⟨S_, .f32⟩
  | 26 => ⟨S65536, .f32⟩
  | 27 => ⟨S65536, .f32⟩
  | 28 => ⟨S_, .i32⟩
  | 29 => ⟨S1114112, .i32⟩
  | 30 => ⟨S1114112, .i1⟩
  | 31 => ⟨S_, .i32⟩
  | 32 => ⟨S1114112, .i32⟩
  | 33 => ⟨S1114112, .i32⟩
  | 34 => ⟨S1114112, .i32⟩
  | 35 => ⟨S1114112x1, .i32⟩
  | 36 => ⟨S1114112, .f32⟩
  | 37 => ⟨S_, .i32⟩
  | 38 => ⟨S1114112, .i32⟩
  | 39 => ⟨S1114112, .i1⟩
  | 40 => ⟨S_, .i32⟩
  | 41 => ⟨S1114112, .i32⟩
  | 42 => ⟨S1114112, .i32⟩
  | 43 => ⟨S1114112, .i32⟩
  | 44 => ⟨S1114112x1, .i32⟩
  | 45 => ⟨S1114112, .f32⟩
  | 46 => ⟨S1114112, .f32⟩
  | 47 => ⟨S65536x3, .f32⟩
  | 48 => ⟨S_, .i32⟩
  | 49 => ⟨S1114112, .i32⟩
  | 50 => ⟨S1114112, .i1⟩
  | 51 => ⟨S_, .i32⟩
  | 52 => ⟨S1114112, .i32⟩
  | 53 => ⟨S1114112, .i32⟩
  | 54 => ⟨S1114112, .i32⟩
  | 55 => ⟨S1114112x1, .i32⟩
  | 56 => ⟨S1114112x3, .f32⟩
  | 57 => ⟨S1114112x1, .f32⟩
  | 58 => ⟨S1114112x3, .f32⟩
  | 59 => ⟨S1114112x3, .f32⟩
  | 60 => ⟨S_, .f32⟩
  | 61 => ⟨S65536x3, .f32⟩
  | 62 => ⟨S1114112x1, .i32⟩
  | 63 => ⟨S65536x3, .f32⟩
  | 64 => ⟨S1x3, .f32⟩
  | 65 => ⟨S65536x3, .f32⟩
  | 66 => ⟨S65536x3, .f32⟩
  | 67 => ⟨S_, .f32⟩
  | 68 => ⟨S65536x3, .f32⟩
  | 69 => ⟨S65536x3, .i1⟩
  | 70 => ⟨S_, .f32⟩
  | 71 => ⟨S65536x3, .f32⟩
  | 72 => ⟨S65536x3, .f32⟩
  | 73 => ⟨S65536x3, .f32⟩
  | 74 => ⟨S65536, .i32⟩
  | 75 => ⟨S1x1048576, .i32⟩
  | 76 => ⟨S1048576, .i32⟩
  | 77 => ⟨S1114112, .i32⟩
  | 78 => ⟨S1x1048576, .i32⟩
  | 79 => ⟨S1048576, .i32⟩
  | 80 => ⟨S1114112, .i32⟩
  | 81 => ⟨S_, .f32⟩
  | 82 => ⟨S1114112, .f32⟩
  | 83 => ⟨S_, .f32⟩
  | 84 => ⟨S65536, .f32⟩
  | 85 => ⟨S1114112x1, .i32⟩
  | 86 => ⟨S65536, .f32⟩
  | 87 => ⟨S_, .f32⟩
  | 88 => ⟨S65536, .f32⟩
  | 89 => ⟨S65536, .i1⟩
  | 90 => ⟨S65536, .f32⟩
  | 91 => ⟨S_, .f32⟩
  | 92 => ⟨S65536, .f32⟩
  | 93 => ⟨S65536, .f32⟩
  | 94 => ⟨S_, .i32⟩
  | 95 => ⟨S1114112, .i32⟩
  | 96 => ⟨S1114112, .i1⟩
  | 97 => ⟨S_, .i32⟩
  | 98 => ⟨S1114112, .i32⟩
  | 99 => ⟨S1114112, .i32⟩
  | 100 => ⟨S1114112, .i32⟩
  | 101 => ⟨S1114112x1, .i32⟩
  | 102 => ⟨S1114112, .f32⟩
  | 103 => ⟨S_, .i32⟩
  | 104 => ⟨S1114112, .i32⟩
  | 105 => ⟨S1114112, .i1⟩
  | 106 => ⟨S_, .i32⟩
  | 107 => ⟨S1114112, .i32⟩
  | 108 => ⟨S1114112, .i32⟩
  | 109 => ⟨S1114112, .i32⟩
  | 110 => ⟨S1114112x1, .i32⟩
  | 111 => ⟨S1114112, .f32⟩
  | 112 => ⟨S1114112, .f32⟩
  | 113 => ⟨S65536x128, .f32⟩
  | 114 => ⟨S_, .i32⟩
  | 115 => ⟨S1114112, .i32⟩
  | 116 => ⟨S1114112, .i1⟩
  | 117 => ⟨S_, .i32⟩
  | 118 => ⟨S1114112, .i32⟩
  | 119 => ⟨S1114112, .i32⟩
  | 120 => ⟨S1114112, .i32⟩
  | 121 => ⟨S1114112x1, .i32⟩
  | 122 => ⟨S1114112x128, .f32⟩
  | 123 => ⟨S1114112x1, .f32⟩
  | 124 => ⟨S1114112x128, .f32⟩
  | 125 => ⟨S1114112x128, .f32⟩
  | 126 => ⟨S_, .f32⟩
  | 127 => ⟨S65536x128, .f32⟩
  | _ => ⟨S65536x3, .f32⟩

abbrev hbmTy0_1 (i : Nat) : BufTy := match i % 128 with
  | 0 => ⟨S1114112x1, .i32⟩
  | 1 => ⟨S65536x128, .f32⟩
  | 2 => ⟨S1x128, .f32⟩
  | 3 => ⟨S65536x128, .f32⟩
  | 4 => ⟨S65536x128, .f32⟩
  | 5 => ⟨S256x32768, .f32⟩
  | 6 => ⟨S256x512, .f32⟩
  | 7 => ⟨S1x512, .f32⟩
  | 8 => ⟨S256x512, .f32⟩
  | 9 => ⟨S256x512, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_c_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_19 : Ref sig .tc := ⟨.hbm, 114, rfl⟩
abbrev main_v85 : Ref sig .tc := ⟨.hbm, 115, rfl⟩
abbrev main_v86 : Ref sig .tc := ⟨.hbm, 116, rfl⟩
abbrev main_c_20 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_21 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x3_0_1 : S1114112x1.BroadcastsInDim S1114112x3 (![0, 1] : Fin 2 → Fin S1114112x3.rank)
  bcast_S_S65536x3 : S_.BroadcastsInDim S65536x3 (![] : Fin 0 → Fin S65536x3.rank)
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S256x32768 : S65536x128.ShapeCasts S256x32768
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x3_S3x3_S65536x3_1_0_0_1_n_n_wf : DotDims.WF S65536x3 S3x3 S65536x3 [1] [0] [0] [1] [] []
  gather_S65536x3_S1114112x1_S1114112x3_1_0_n_n_0_1_13_wf : GatherDims.WF S65536x3 S1114112x1 S1114112x3 [1] [0] [] [0] [] 1 ![1, 3]
  scatter_S65536x3_S1114112x1_S1114112x3_1_0_0_1_wf : ScatterDims.WF S65536x3 S1114112x1 S1114112x3 [1] [0] [0] 1
  dot_S65536x3_S3x128_S65536x128_1_0_0_1_n_n_wf : DotDims.WF S65536x3 S3x128 S65536x128 [1] [0] [0] [1] [] []
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S256x32768_S32768x512_S256x512_1_0_0_1_n_n_wf : DotDims.WF S256x32768 S32768x512 S256x512 [1] [0] [0] [1] [] []

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x3_S3x3_S65536x3_1_0_0_1_n_n : DotDims S65536x3 S3x3 S65536x3 where
  lhsContracting := [1]
  rhsContracting := [0]
  lhsNonContracting := [0]
  rhsNonContracting := [1]
  lhsBatch := []
  rhsBatch := []
  wf := dot_S65536x3_S3x3_S65536x3_1_0_0_1_n_n_wf
def gather_S65536x3_S1114112x1_S1114112x3_1_0_n_n_0_1_13 : GatherDims S65536x3 S1114112x1 S1114112x3 where
  offsetDims := [1]
  collapsedSliceDims := [0]
  operandBatchingDims := []
  startIndicesBatchingDims := []
  startIndexMap := [0]
  indexVectorDim := 1
  sliceSizes := ![1, 3]
  wf := gather_S65536x3_S1114112x1_S1114112x3_1_0_n_n_0_1_13_wf
def scatter_S65536x3_S1114112x1_S1114112x3_1_0_0_1 : ScatterDims S65536x3 S1114112x1 S1114112x3 where
  updateWindowDims := [1]
  insertedWindowDims := [0]
  scatterDimsToOperandDims := [0]
  indexVectorDim := 1
  wf := scatter_S65536x3_S1114112x1_S1114112x3_1_0_0_1_wf
def dot_S65536x3_S3x128_S65536x128_1_0_0_1_n_n : DotDims S65536x3 S3x128 S65536x128 where
  lhsContracting := [1]
  rhsContracting := [0]
  lhsNonContracting := [0]
  rhsNonContracting := [1]
  lhsBatch := []
  rhsBatch := []
  wf := dot_S65536x3_S3x128_S65536x128_1_0_0_1_n_n_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S256x32768_S32768x512_S256x512_1_0_0_1_n_n : DotDims S256x32768 S32768x512 S256x512 where
  lhsContracting := [1]
  rhsContracting := [0]
  lhsNonContracting := [0]
  rhsNonContracting := [1]
  lhsBatch := []
  rhsBatch := []
  wf := dot_S256x32768_S32768x512_S256x512_1_0_0_1_n_n_wf

class Facts : Prop extends Facts₀ where

variable [Facts]
-- ==== Proof.Blocks.lean ====
/-
  The blocks a grid point of the projection kernel is given.

  Write A for the [256, 32768] activations, W for the [32768, 512] weights and b for the [1, 512] bias row as the
  kernel's region finds them.  Grid point t is given columns 4096·t … 4096·t + 4095 of A, the same rows of W, and the
  whole bias row: entry (i, k) of its activation block is A(i, 4096·t + k), entry (k, j) of its weight block is
  W(4096·t + k, j).  Each reading is stated first for an arbitrary array in the window's place, so that nothing about
  how the region's arrays were computed is ever looked at.
-/
import proofs.«121929_j54752243089440_1_alg».proof.Proof.Gen.KernelIdeal.Frame
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

variable (m : (ℓ : Loc nD τ sig) → Buf (Elt Ideal) ℓ) (ρ : Dev nD → PrngReg)

theorem grid_eight : cfg0.N = 8 := N_0

/-- Where each window's block sits at point t: the activations' block index is (0, t), the weights' (t, 0), the bias
    row's and the output's (0, 0). -/
theorem block_index : ∀ t : Fin cfg0.N,
    win0_0.index t 0 = 0 ∧ win0_0.index t 1 = t.val ∧ win0_1.index t 0 = t.val ∧ win0_1.index t 1 = 0
      ∧ win0_2.index t 0 = 0 ∧ win0_2.index t 1 = 0 ∧ win0_3.index t 0 = 0 ∧ win0_3.index t 1 = 0 :=
  (by decide +kernel : ∀ t : Fin grid0.N, _)

/-- Contraction position k of point t's block is position 4096·t + k of the whole contraction. -/
def pos (t : Fin cfg0.N) (k : Fin 4096) : Fin 32768 :=
  ⟨4096 * t.val + k.val, by have h := lt_of_lt_of_eq t.isLt grid_eight; have := k.isLt; omega⟩

/-! ## A window's block of ANY array is the array read at the shifted position -/

theorem act_read (t : Fin cfg0.N) (A : Vec Ideal S256x32768 .f32) (i : Fin 256) (k : Fin 4096) :
    ((cfg0.win 0).blk t).view.read (Elt Ideal) A (ix2 i k) = A (ix2 i (pos t k)) := by
  rw [View.read_apply]
  show A _ = A _
  refine congrArg A (funext fun a => Fin.ext ?_)
  match a with
  | ⟨0, _⟩ => show win0_0.index t 0 * 256 + 1 * i.val = i.val; rw [(block_index t).1]; omega
  | ⟨1, _⟩ => show win0_0.index t 1 * 4096 + 1 * k.val = 4096 * t.val + k.val; rw [(block_index t).2.1]; omega

theorem wgt_read (t : Fin cfg0.N) (W : Vec Ideal S32768x512 .f32) (k : Fin 4096) (j : Fin 512) :
    ((cfg0.win 1).blk t).view.read (Elt Ideal) W (ix2 k j) = W (ix2 (pos t k) j) := by
  rw [View.read_apply]
  show W _ = W _
  refine congrArg W (funext fun a => Fin.ext ?_)
  match a with
  | ⟨0, _⟩ => show win0_1.index t 0 * 4096 + 1 * k.val = 4096 * t.val + k.val; rw [(block_index t).2.2.1]; omega
  | ⟨1, _⟩ => show win0_1.index t 1 * 512 + 1 * j.val = j.val; rw [(block_index t).2.2.2.1]; omega

theorem bias_read (t : Fin cfg0.N) (b : Vec Ideal S1x512 .f32) (j : Fin 512) :
    ((cfg0.win 2).blk t).view.read (Elt Ideal) b (ix2 (0 : Fin 1) j) = b (ix2 (0 : Fin 1) j) := by
  rw [View.read_apply]
  show b _ = b _
  refine congrArg b (funext fun a => Fin.ext ?_)
  match a with
  | ⟨0, _⟩ => show win0_2.index t 0 * 1 + 1 * 0 = 0; rw [(block_index t).2.2.2.2.1]
  | ⟨1, _⟩ => show win0_2.index t 1 * 512 + 1 * j.val = j.val; rw [(block_index t).2.2.2.2.2.1]; omega

/-! ## Names for the arrays at the region's entry and for a point's blocks -/

abbrev actArr (c : Dev nD) : Vec Ideal S256x32768 .f32 := V m c (Pipeline.arrRef spec0 0)
abbrev wgtArr (c : Dev nD) : Vec Ideal S32768x512 .f32 := V m c (Pipeline.arrRef spec0 1)
abbrev biasArr (c : Dev nD) : Vec Ideal S1x512 .f32 := V m c (Pipeline.arrRef spec0 2)
abbrev actBlk (c : Dev nD) (t : Fin cfg0.N) : Vec Ideal S256x4096 .f32 := iblk m c 0 t
abbrev wgtBlk (c : Dev nD) (t : Fin cfg0.N) : Vec Ideal S4096x512 .f32 := iblk m c 1 t
abbrev biasBlk (c : Dev nD) (t : Fin cfg0.N) : Vec Ideal S1x512 .f32 := iblk m c 2 t

theorem actBlk_apply (c : Dev nD) (t : Fin cfg0.N) (i : Fin 256) (k : Fin 4096) :
    actBlk m c t (ix2 i k) = actArr m c (ix2 i (pos t k)) := by
  unfold actBlk actArr iblk
  exact act_read t _ i k

theorem wgtBlk_apply (c : Dev nD) (t : Fin cfg0.N) (k : Fin 4096) (j : Fin 512) :
    wgtBlk m c t (ix2 k j) = wgtArr m c (ix2 (pos t k) j) := by
  unfold wgtBlk wgtArr iblk
  exact wgt_read t _ k j

theorem biasBlk_apply (c : Dev nD) (t : Fin cfg0.N) (j : Fin 512) :
    biasBlk m c t (ix2 (0 : Fin 1) j) = biasArr m c (ix2 (0 : Fin 1) j) := by
  unfold biasBlk biasArr iblk
  exact bias_read t _ j

end Cert.KernelIdeal.Proj

end
-- ==== Proof.Pieces.lean ====
/-
  What one grid point of the projection kernel leaves behind, as values.

  The kernel keeps a [256, 512] accumulator in a scratch buffer across its eight grid points.  At the first point it
  stores zeros into the accumulator and then overwrites it with "accumulator + (x-block · w-block)", so the accumulator
  ends at "0 + product"; at every later point it ends at "previous accumulator + product"; and at the last point the
  output block is stored as "accumulator (just updated) + bias row broadcast over the 256 rows".  Each statement below
  says this for one control case, for any float instance: the buffer's contents after the point are the body's pure
  arithmetic (the store payloads) applied to the blocks the point was given.
-/
import proofs.«121929_j54752243089440_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Proj

open Cert.KernelIdeal Cert.KernelIdeal.Gen

variable {F : FTy → Type} [FloatOps F]

/-- The whole-buffer rectangle starts at the origin. -/
theorem origin2 : (![0, 0] : Fin 2 → Nat) = fun _ => 0 := funext fun a => by fin_cases a <;> rfl

/-- First point: the accumulator, zeroed and then updated, holds the update computed over the zero block. -/
theorem acc_first (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S256x512 .f32) (harg5 : arg5.IsWhole) (hc0 : cond0_0 i) (hc1 : ¬cond0_1 i)
    (x0 : Vec F S256x4096 .f32) (x1 : Vec F S4096x512 .f32) (x2 : Vec F S1x512 .f32) :
    sout0_A_0 c i arg1 harg1 arg2 harg2 arg3 harg3 arg4 harg4 arg5 harg5 hc0 hc1 x0 x1 x2 = k0_pay2 x0 x1 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S256x512) origin2, View.readCov_unit_zero (S := S256x512) _ origin2]
  simp only [View.readAt_eq_ld, harg1.read_unread, harg2.read_unread, View.ld_unit_zero (S := S256x4096) origin2,
    View.ld_unit_zero (S := S4096x512) origin2]

/-- A middle point: the accumulator holds the update computed over what the point before left in it. -/
theorem acc_middle (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S256x512 .f32) (harg5 : arg5.IsWhole) (hc0 : ¬cond0_0 i) (hc1 : ¬cond0_1 i)
    (x0 : Vec F S256x4096 .f32) (x1 : Vec F S4096x512 .f32) (x2 : Vec F S1x512 .f32) (acc : Vec F S256x512 .f32) :
    sout0_B_0 c i arg1 harg1 arg2 harg2 arg3 harg3 arg4 harg4 arg5 harg5 hc0 hc1 x0 x1 x2 acc = k0_pay2 x0 x1 acc := by
  unfold sout0_B_0
  rw [View.read_writes_eq_canon _ _ _ (scover0_B_0 c i arg1 harg1 arg2 harg2 arg3 harg3 arg4 harg4 arg5 harg5 hc0 hc1 x0 x1 x2 acc)]
  unfold kernelRun0_B
  dsimp only
  sl_unfold_words
  rw [View.canon_unit_zero origin2]
  simp only [View.readAt_eq_ld, harg1.read_unread, harg2.read_unread, harg5.read_unread,
    View.ld_unit_zero (S := S256x4096) origin2, View.ld_unit_zero (S := S4096x512) origin2,
    View.ld_unit_zero (S := S256x512) origin2]

/-- The last point updates the accumulator in the same way … -/
theorem acc_last (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S256x512 .f32) (harg5 : arg5.IsWhole) (hc0 : ¬cond0_0 i) (hc1 : cond0_1 i)
    (x0 : Vec F S256x4096 .f32) (x1 : Vec F S4096x512 .f32) (x2 : Vec F S1x512 .f32) (acc : Vec F S256x512 .f32) :
    sout0_C_0 c i arg1 harg1 arg2 harg2 arg3 harg3 arg4 harg4 arg5 harg5 hc0 hc1 x0 x1 x2 acc = k0_pay2 x0 x1 acc := by
  unfold sout0_C_0
  rw [View.read_writes_eq_canon _ _ _ (scover0_C_0 c i arg1 harg1 arg2 harg2 arg3 harg3 arg4 harg4 arg5 harg5 hc0 hc1 x0 x1 x2 acc)]
  unfold kernelRun0_C
  dsimp only
  sl_unfold_words
  rw [View.canon_unit_zero origin2]
  simp only [View.readAt_eq_ld, harg1.read_unread, harg2.read_unread, harg5.read_unread,
    View.ld_unit_zero (S := S256x4096) origin2, View.ld_unit_zero (S := S4096x512) origin2,
    View.ld_unit_zero (S := S256x512) origin2]

/-- … and stores the output block: the updated accumulator plus the bias row. -/
theorem out_last (c : Dev nD) (i : grid0.Coords) (arg1 : Memref sig .tc .vmem S256x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S256x512 .f32) (harg4 : arg4.IsWhole) (arg5 : Memref sig .tc .vmem S256x512 .f32) (harg5 : arg5.IsWhole) (hc0 : ¬cond0_0 i) (hc1 : cond0_1 i)
    (x0 : Vec F S256x4096 .f32) (x1 : Vec F S4096x512 .f32) (x2 : Vec F S1x512 .f32) (acc : Vec F S256x512 .f32) :
    out0_C_3 c i arg1 harg1 arg2 harg2 arg3 harg3 arg4 harg4 arg5 harg5 hc0 hc1 x0 x1 x2 acc = k0_pay3 (k0_pay2 x0 x1 acc) x2 := by
  unfold out0_C_3
  rw [View.read_writes_eq_canon _ _ _ (cover0_C_3 c i arg1 harg1 arg2 harg2 arg3 harg3 arg4 harg4 arg5 harg5 hc0 hc1 x0 x1 x2 acc)]
  unfold kernelRun0_C
  dsimp only
  sl_unfold_words
  rw [View.canon_unit_zero origin2]
  simp only [View.readAt_eq_ld, harg1.read_unread, harg2.read_unread, harg3.read_unread, harg5.read_unread,
    View.readCov_unit_zero (S := S256x512) _ origin2,
    View.ld_unit_zero (S := S256x4096) origin2, View.ld_unit_zero (S := S4096x512) origin2,
    View.ld_unit_zero (S := S256x512) origin2, View.ld_unit_zero (S := S1x512) origin2]

end Cert.KernelIdeal.Proj

end
-- ==== Proof.Payload.lean ====
/-
  The body's arithmetic read at one entry, over the extended reals.

  With floats read as extended reals, narrowing to bf16 is the identity and the matrix unit's product of a
  [256, 4096] block with a [4096, 512] block into a zero accumulator is, at entry (i, j), the plain sum over the 4096
  contraction positions of the products.  So one accumulator update adds that sum to the old entry, the reset stores
  zero, and the output store adds the bias row's entry j to the accumulator's entry (i, j).
-/
import proofs.«121929_j54752243089440_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Proj

open Cert.KernelIdeal Cert.KernelIdeal.Gen

/-! ## Which entries of the two blocks a product term reads -/

theorem lhs_row (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem lhs_pos (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
theorem rhs_pos (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
theorem rhs_col (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- The block product into a zero accumulator at entry (i, j): the sum over the block's 4096 contraction positions. -/
theorem block_product_apply {φ₁ φ₂ : FTy} (x : FVec Ideal S256x4096 φ₁) (w : FVec Ideal S4096x512 φ₂) (i : Fin 256) (j : Fin 512) :
    matmul dot_S256x4096_S4096x512_S256x512_1_0_0_1_n_n none x w (constant S256x512 .f32 0x00000000#32) (ix2 i j)
      = ∑ k : Fin 4096, x (ix2 i k) * w (ix2 k j) := by
  simp only [matmul]
  rw [Ideal.matmul_constant_zero_apply, ← Equiv.sum_comp (contrEquiv1 dot_S256x4096_S4096x512_S256x512_1_0_0_1_n_n 4096 rfl rfl).symm]
  refine Finset.sum_congr rfl fun k _ => ?_
  have hk := contrEquiv1_symm_val dot_S256x4096_S4096x512_S256x512_1_0_0_1_n_n 4096 rfl rfl k
  have el : dot_S256x4096_S4096x512_S256x512_1_0_0_1_n_n.lhsIdx (ix2 i j) ((contrEquiv1 dot_S256x4096_S4096x512_S256x512_1_0_0_1_n_n 4096 rfl rfl).symm k) = ix2 i k := funext fun a => Fin.ext (by
    match a with
    | ⟨0, _⟩ => exact lhs_row _ _
    | ⟨1, _⟩ => exact (lhs_pos _ _).trans hk)
  have er : dot_S256x4096_S4096x512_S256x512_1_0_0_1_n_n.rhsIdx (ix2 i j) ((contrEquiv1 dot_S256x4096_S4096x512_S256x512_1_0_0_1_n_n 4096 rfl rfl).symm k) = ix2 k j := funext fun a => Fin.ext (by
    match a with
    | ⟨0, _⟩ => exact (rhs_pos _ _).trans hk
    | ⟨1, _⟩ => exact rhs_col _ _)
  rw [el, er]

/-! ## The three stored values at an entry -/

/-- The reset stores zero everywhere. -/
theorem reset_apply (y : S256x512.Idx) : k0_pay1 (F := Ideal) y = 0 := by
  unfold k0_pay1
  rw [shapeCast_self]
  exact Ideal.ofBits_zero_f32

/-- One update: the old entry plus the block's sum of products. -/
theorem update_apply (x : Vec Ideal S256x4096 .f32) (w : Vec Ideal S4096x512 .f32) (acc : Vec Ideal S256x512 .f32)
    (i : Fin 256) (j : Fin 512) :
    k0_pay2 (F := Ideal) x w acc (ix2 i j) = acc (ix2 i j) + ∑ k : Fin 4096, x (ix2 i k) * w (ix2 k j) := by
  unfold k0_pay2
  rw [shapeCast_self, shapeCast_self, addf_apply, block_product_apply]
  rfl

/-- The output store: the accumulator's entry plus the bias row's entry of the same column. -/
theorem output_apply (acc : Vec Ideal S256x512 .f32) (b : Vec Ideal S1x512 .f32) (i : Fin 256) (j : Fin 512) :
    k0_pay3 (F := Ideal) acc b (ix2 i j) = acc (ix2 i j) + b (ix2 (0 : Fin 1) j) := by
  unfold k0_pay3
  rw [shapeCast_self, addf_apply]
  refine congrArg (acc (ix2 i j) + ·) ?_
  exact broadcastTo_apply b broadcasts_S1x512_S256x512 (ix2 i j) (ix2 (0 : Fin 1) j) (fun a => match a with
    | ⟨0, _⟩ => by show 0 = if (1 : Nat) = 1 then 0 else _; rw [if_pos rfl]
    | ⟨1, _⟩ => by show j.val = if (512 : Nat) = 1 then 0 else j.val; rw [if_neg (by decide)])

end Cert.KernelIdeal.Proj

end
-- ==== Proof.BlockSum.lean ====
/-
  A long sum cut into equal consecutive blocks.

  The contraction of the projection runs over 32768 terms; the kernel adds it up 4096 terms at a time into an
  accumulator.  Both are sums in a commutative additive monoid (the extended reals are one), so nothing about
  finiteness is needed: the first `B * (t + 1)` terms of a sequence are its first `B * t` terms plus the `t`-th
  block of `B` terms, and a sum over `Fin N` is the sum of the first `N` terms of the sequence extended by zero.
-/
import Mathlib.Algebra.BigOperators.Group.Finset.Basic
import Mathlib.Data.Fintype.BigOperators

open scoped BigOperators

namespace Cert.BlockSum

variable {M : Type*} [AddCommMonoid M]

/-- The sequence `g` on `Fin N`, extended by zero beyond `N`. -/
def ext {N : ℕ} (g : Fin N → M) : ℕ → M := fun n => if h : n < N then g ⟨n, h⟩ else 0

theorem ext_of_lt {N : ℕ} (g : Fin N → M) (n : ℕ) (h : n < N) : ext g n = g ⟨n, h⟩ := dif_pos h

/-- A sum over `Fin N` is the sum of the first `N` terms of the extended sequence. -/
theorem sum_fin_eq_sum_ext {N : ℕ} (g : Fin N → M) : ∑ n : Fin N, g n = ∑ n ∈ Finset.range N, ext g n :=
  Finset.sum_fin_eq_sum_range g

/-- The first `B * (t + 1)` terms are the first `B * t` terms plus block `t`. -/
theorem sum_range_block (f : ℕ → M) (B t : ℕ) :
    ∑ n ∈ Finset.range (B * (t + 1)), f n
      = ∑ n ∈ Finset.range (B * t), f n + ∑ k : Fin B, f (B * t + k.val) := by
  rw [Nat.mul_succ, Finset.sum_range_add, Fin.sum_univ_eq_sum_range (fun k => f (B * t + k)) B]

/-- The first block alone: the sum of the first `B` terms. -/
theorem sum_range_first (f : ℕ → M) (B : ℕ) :
    ∑ n ∈ Finset.range (B * (0 + 1)), f n = ∑ k : Fin B, f (B * 0 + k.val) := by
  rw [sum_range_block, Nat.mul_zero, Finset.range_zero, Finset.sum_empty, zero_add]

end Cert.BlockSum
-- ==== Proof.Accumulate.lean ====
/-
  The accumulator after each grid point, over the extended reals.

  Fix an output entry (i, j) and list the 32768 products A(i, n)·W(n, j) in order of n.  After grid point t the
  accumulator's entry (i, j) is the sum of the first 4096·(t + 1) of them: at the first point it is 0 plus block 0's
  sum, and every later point adds its own block's sum to what the point before left.  A sum of extended reals may be
  regrouped freely, so nothing about finiteness enters.
-/
import proofs.«121929_j54752243089440_1_alg».proof.Proof.Blocks
import proofs.«121929_j54752243089440_1_alg».proof.Proof.Pieces
import proofs.«121929_j54752243089440_1_alg».proof.Proof.Payload
import proofs.«121929_j54752243089440_1_alg».proof.Proof.BlockSum

noncomputable section

open scoped BigOperators
open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

variable (m : (ℓ : Loc nD τ sig) → Buf (Elt Ideal) ℓ) (ρ : Dev nD → PrngReg)

/-! ## The products of one output entry, in contraction order, and their partial sums -/

/-- The products A(i, n)·W(n, j), n = 0, 1, …, extended by zero past the contraction's end. -/
def prodSeq (c : Dev nD) (i : Fin 256) (j : Fin 512) : ℕ → EReal :=
  BlockSum.ext fun n : Fin 32768 => (actArr m c (ix2 i n) * wgtArr m c (ix2 n j) : EReal)

/-- The array whose entry (i, j) is the sum of the first N products. -/
def accUpTo (c : Dev nD) (N : ℕ) : Vec Ideal S256x512 .f32 :=
  fun y => ∑ n ∈ Finset.range N, prodSeq m c (y 0) (y 1) n

theorem accUpTo_apply (c : Dev nD) (N : ℕ) (i : Fin 256) (j : Fin 512) :
    accUpTo m c N (ix2 i j) = ∑ n ∈ Finset.range N, prodSeq m c i j n := rfl

/-- A product of point t's blocks is the product at the shifted position. -/
theorem block_term (c : Dev nD) (t : Fin cfg0.N) (i : Fin 256) (j : Fin 512) (k : Fin 4096) :
    (actBlk m c t (ix2 i k) * wgtBlk m c t (ix2 k j) : EReal) = prodSeq m c i j (4096 * t.val + k.val) := by
  have h : 4096 * t.val + k.val < 32768 := (pos t k).isLt
  have hp : pos t k = ⟨4096 * t.val + k.val, h⟩ := rfl
  rw [actBlk_apply, wgtBlk_apply]
  unfold prodSeq BlockSum.ext
  rw [dif_pos h, ← hp]

/-! ## What each control case leaves, at a grid point's own memrefs and blocks -/

theorem scratch_first (c : Dev nD) (t : Fin cfg0.N) (h0 : t.val % 8 = 0) (h1 : ¬t.val % 8 = 7) :
    (outsAt0 m c t.val t.isLt).2 = k0_pay2 (actBlk m c t) (wgtBlk m c t) (k0_pay1 (F := Ideal)) := by
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

theorem scratch_middle (c : Dev nD) (t : Fin cfg0.N) (h0 : ¬t.val % 8 = 0) (h1 : ¬t.val % 8 = 7) :
    (outsAt0 m c t.val t.isLt).2
      = k0_pay2 (actBlk m c t) (wgtBlk m c t) (outsAt0 m c (t.val - 1) (Nat.lt_of_le_of_lt (Nat.sub_le _ _) t.isLt)).2 := by
  rw [outsAt0_B m c t h0 h1]
  dsimp only
  exact acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

theorem scratch_last (c : Dev nD) (t : Fin cfg0.N) (h0 : ¬t.val % 8 = 0) (h1 : t.val % 8 = 7) :
    (outsAt0 m c t.val t.isLt).2
      = k0_pay2 (actBlk m c t) (wgtBlk m c t) (outsAt0 m c (t.val - 1) (Nat.lt_of_le_of_lt (Nat.sub_le _ _) t.isLt)).2 := by
  rw [outsAt0_C m c t h0 h1]
  dsimp only
  exact acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

theorem output_last (c : Dev nD) (t : Fin cfg0.N) (h0 : ¬t.val % 8 = 0) (h1 : t.val % 8 = 7) :
    (outsAt0 m c t.val t.isLt).1
      = k0_pay3 (k0_pay2 (actBlk m c t) (wgtBlk m c t) (outsAt0 m c (t.val - 1) (Nat.lt_of_le_of_lt (Nat.sub_le _ _) t.isLt)).2)
          (biasBlk m c t) := by
  rw [outsAt0_C m c t h0 h1]
  dsimp only
  exact out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-! ## The invariant -/

/-- One update over an accumulator holding the first 4096·t products leaves the first 4096·(t + 1). -/
theorem update_accUpTo (c : Dev nD) (t : Fin cfg0.N) :
    k0_pay2 (actBlk m c t) (wgtBlk m c t) (accUpTo m c (4096 * t.val)) = accUpTo m c (4096 * (t.val + 1)) := by
  funext y
  obtain ⟨i, j, rfl⟩ : ∃ (i : Fin 256) (j : Fin 512), y = ix2 i j := ⟨y 0, y 1, eq_ix2 y⟩
  rw [update_apply, accUpTo_apply, accUpTo_apply, BlockSum.sum_range_block]
  exact congrArg (_ + ·) (Finset.sum_congr rfl fun k _ => block_term m c t i j k)

/-- After point n the accumulator holds, entry by entry, the sum of the first 4096·(n + 1) products. -/
theorem acc_after (c : Dev nD) : ∀ (n : ℕ) (h : n < cfg0.N), (outsAt0 m c n h).2 = accUpTo m c (4096 * (n + 1))
  | 0, h => by
    rw [scratch_first m c ⟨0, h⟩ rfl (by dsimp only; omega)]
    funext y
    obtain ⟨i, j, rfl⟩ : ∃ (i : Fin 256) (j : Fin 512), y = ix2 i j := ⟨y 0, y 1, eq_ix2 y⟩
    rw [update_apply, reset_apply, zero_add, accUpTo_apply, BlockSum.sum_range_first]
    exact Finset.sum_congr rfl fun k _ => block_term m c ⟨0, h⟩ i j k
  | n + 1, h => by
    have hN := lt_of_lt_of_eq h grid_eight
    have h0 : ¬(⟨n + 1, h⟩ : Fin cfg0.N).val % 8 = 0 := by dsimp only; omega
    have ih := acc_after c n (Nat.lt_of_succ_lt h)
    by_cases h1 : (⟨n + 1, h⟩ : Fin cfg0.N).val % 8 = 7
    · rw [scratch_last m c ⟨n + 1, h⟩ h0 h1]
      show k0_pay2 _ _ (outsAt0 m c n _).2 = _
      rw [ih]
      exact update_accUpTo m c ⟨n + 1, h⟩
    · rw [scratch_middle m c ⟨n + 1, h⟩ h0 h1]
      show k0_pay2 _ _ (outsAt0 m c n _).2 = _
      rw [ih]
      exact update_accUpTo m c ⟨n + 1, h⟩

end Cert.KernelIdeal.Proj

end
-- ==== Proof.Result.lean ====
/-
  The kernel's result array, over the extended reals.

  After the last grid point the accumulator's entry (i, j) is the whole contraction ∑ₙ A(i, n)·W(n, j), and that point
  stores it, plus the bias entry b(0, j), into the output's block.  The output window's block never moves and is the
  whole [256, 512] array, and it is written back once, after the last point: so the result array holds the projection
  A·W + b, row-broadcast, entry by entry.
-/
import proofs.«121929_j54752243089440_1_alg».proof.Proof.Accumulate
import proofs.«121929_j54752243089440_1_alg».proof.Proof.Gen.KernelIdeal.Value

noncomputable section

open scoped BigOperators
open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

variable (m : (ℓ : Loc nD τ sig) → Buf (Elt Ideal) ℓ) (ρ : Dev nD → PrngReg)

/-- The projection: entry (i, j) is the whole contraction of row i of A with column j of W, plus the bias of column j. -/
def projAt (c : Dev nD) (i : Fin 256) (j : Fin 512) : EReal :=
  (∑ n : Fin 32768, (actArr m c (ix2 i n) * wgtArr m c (ix2 n j) : EReal)) + biasArr m c (ix2 (0 : Fin 1) j)

/-- The projection as the contents of the result array. -/
def projected (c : Dev nD) : Buf (Elt Ideal) ((c : Thread nD τ).loc main_v103) :=
  fun y => projAt m c (y 0) (y 1)

theorem projected_apply (c : Dev nD) (i : Fin 256) (j : Fin 512) : projected m c (ix2 i j) = projAt m c i j := rfl

/-- What the last point stores into the output's block is the projection. -/
theorem output_is_projected (c : Dev nD) (t : Fin cfg0.N) (h1 : t.val % 8 = 7) :
    (outsAt0 m c t.val t.isLt).1 = projected m c := by
  have hN := lt_of_lt_of_eq t.isLt grid_eight
  have h0 : ¬t.val % 8 = 0 := by omega
  have ht : t.val = 7 := by omega
  rw [output_last m c t h0 h1, ← scratch_last m c t h0 h1, acc_after m c t.val t.isLt, ht]
  funext y
  obtain ⟨i, j, rfl⟩ : ∃ (i : Fin 256) (j : Fin 512), y = ix2 i j := ⟨y 0, y 1, eq_ix2 y⟩
  rw [output_apply, accUpTo_apply, biasBlk_apply, projected_apply]
  unfold projAt prodSeq
  rw [BlockSum.sum_fin_eq_sum_ext]

/-- The one write-back, after the last point, writes the projection: the output's block is the whole array. -/
theorem flushed_last (c : Dev nD) (t : Fin cfg0.N) (hf : (cfg0.win 3).flush t = true) :
    (dats m 0 c).flushed 3 t = ((cfg0.win 3).blk t).view.read (Elt Ideal) (projected m c) := by
  have h7 : t.val % 8 = 7 := (flush0_3 t).mp hf
  have hN := lt_of_lt_of_eq t.isLt grid_eight
  obtain rfl : t = t0_7 := Fin.ext (by show t.val = 7; omega)
  rw [Value.flushed3, output_is_projected m c t0_7 h7]
  have hz' : (fun a => win0_3.index t0_7 a * main_v103.ty.shape.size a) = fun _ => 0 := funext fun a => by
    match a with
    | ⟨0, _⟩ => show win0_3.index t0_7 0 * _ = 0; rw [(block_index t0_7).2.2.2.2.2.2.1, Nat.zero_mul]
    | ⟨1, _⟩ => show win0_3.index t0_7 1 * _ = 0; rw [(block_index t0_7).2.2.2.2.2.2.2, Nat.zero_mul]
  exact (Memref.read_access_unit_zero (Elt Ideal) main_v103 hz' (fun a => by rw [congrFun hz' a]; simp) (projected m c)).symm

/-- So the result array ends holding the projection: the last point's block covers every index. -/
theorem final_out (c : Dev nD) : (dats m 0 c).arrAt 3 cfg0.N = projected m c :=
  (dats m 0 c).arrAt_eq_of_cover 3 (projected m c) (flushed_last m c) fun i =>
    ⟨t0_7, (flush0_3 t0_7).mpr rfl, by
      show i ∈ ((View.whole main_v103).slice (win0_3.rect t0_7)).set
      rw [View.set_slice_whole, Rect.mem_set_unit]
      intro a
      have hi0 : (i 0 : Nat) < 256 := (i 0).isLt
      have hi1 : (i 1 : Nat) < 512 := (i 1).isLt
      match a with
      | ⟨0, _⟩ =>
        show win0_3.index t0_7 0 * win0_3.size 0 ≤ (i 0 : Nat)
          ∧ (i 0 : Nat) < win0_3.index t0_7 0 * win0_3.size 0 + win0_3.xsize (grid0.coords t0_7) 0
        rw [(block_index t0_7).2.2.2.2.2.2.1, show win0_3.xsize (grid0.coords t0_7) 0 = 256 from by decide +kernel]
        omega
      | ⟨1, _⟩ =>
        show win0_3.index t0_7 1 * win0_3.size 1 ≤ (i 1 : Nat)
          ∧ (i 1 : Nat) < win0_3.index t0_7 1 * win0_3.size 1 + win0_3.xsize (grid0.coords t0_7) 1
        rw [(block_index t0_7).2.2.2.2.2.2.2, show win0_3.xsize (grid0.coords t0_7) 1 = 512 from by decide +kernel]
        omega⟩

/-- The kernel's run, read: the result array at the projection, the eight arguments unchanged. -/
theorem kernel_run : θ_run defs (onTc (τ := τ) (main (F := Ideal))) ⟨m, fun _ => 0, ρ⟩ fun r => ∀ c : Dev nD,
      r.2.mem ((c : Thread nD τ).loc main_v103) = projected m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_out m c), (h c).2⟩) (Value.run_blocks m ρ)

end Cert.KernelIdeal.Proj

end
-- ==== Proof.HostPrefix.lean ====
/-
  What the projection kernel is launched on.

  Before the kernel's region the program runs the two graph-convolution layers on the host — the same operations, in
  the same order, as the reference program runs before its final matrix product.  So the [256, 32768] activations the
  kernel's first window reads are exactly the reference's stage "%101" of the same six arguments, and the kernel's
  [1, 512] bias row is the bias vector reshaped.  The graph layers are never opened: both sides apply one and the same
  function to the arguments.
-/
import proofs.«121929_j54752243089440_1_alg».proof.Proof.Gen.KernelIdeal.Frame.Runs
import proofs.«121929_j54752243089440_1_alg».proof.Proof.RefRead
import Idealize.ShloMosaic.Lib.StableHlo.Run

noncomputable section

open Idealize.ShloMosaic Idealize.ShloMosaic.TcCoe Idealize.SL.Sem Idealize.ShloMosaic.StableHlo

namespace Cert.KernelIdeal.Proj

open Cert.KernelIdeal Cert.KernelIdeal.Gen

variable {F : FTy → Type} [FloatOps F]
variable (m : (ℓ : Loc nD τ sig) → Buf (Elt F) ℓ)

set_option maxRecDepth 8192 in
set_option maxHeartbeats 52000000 in
/-- At the region's entry the activations buffer holds the reference's stage of the same name, of the launch contents
    of the six arguments it depends on. -/
theorem entry_activations (c : Dev nD) :
    V m c main_v101 = Cert.ReferenceIdeal.ReadP.val_main_v101 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

set_option maxRecDepth 8192 in
set_option maxHeartbeats 52000000 in
/-- At the region's entry the bias row is the bias vector laid out as one row. -/
theorem entry_bias (c : Dev nD) :
    V m c main_v102 = shapeCast S1x512 (m ((c : Thread nD τ).loc main_arg7)) shapeCasts_S512_S1x512 := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

end Cert.KernelIdeal.Proj

end
-- ==== Proof.RefBridge.lean ====
/-
  The reference computes the same projection.

  The reference's last stage is "(activations · weights) + bias broadcast over the rows", its matrix product read at
  entry (i, j) as the sum over all 32768 contraction positions.  Its activations are the very stage the kernel's first
  window holds at the region's entry, its weights are the weights argument, and its bias at column j is the bias
  vector's entry j, which is what the kernel's bias row holds at (0, j).  So the two results agree entry by entry.
-/
import proofs.«121929_j54752243089440_1_alg».proof.Proof.Result
import proofs.«121929_j54752243089440_1_alg».proof.Proof.HostPrefix
import proofs.«121929_j54752243089440_1_alg».proof.Proof.RefRead

noncomputable section

open scoped BigOperators
open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

variable (m : (ℓ : Loc nD τ sig) → Buf (Elt Ideal) ℓ) (ρ : Dev nD → PrngReg)

/-- The kernel's bias row at column j is the bias vector's entry j. -/
theorem bias_entry (c : Dev nD) (j : Fin 512) :
    biasArr m c (ix2 (0 : Fin 1) j) = (m ((c : Thread nD τ).loc main_arg7)) (ix1 j) := by
  have e : biasArr m c = shapeCast S1x512 (m ((c : Thread nD τ).loc main_arg7)) shapeCasts_S512_S1x512 := entry_bias m c
  rw [e]
  refine (shapeCast_addUnit_apply ![512] (m ((c : Thread nD τ).loc main_arg7)) shapeCasts_S512_S1x512 (ix2 (0 : Fin 1) j)).trans ?_
  exact congrArg (m ((c : Thread nD τ).loc main_arg7)) (funext fun a => match a with | ⟨0, _⟩ => rfl)

open Cert.ReferenceIdeal.ReadP in
/-- The reference's result stage, of the kernel's own arguments, is the projection. -/
theorem reference_is_projected (c : Dev nD) :
    Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      = projected m c := by
  have ea : actArr m c = Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    entry_activations m c
  have ew : wgtArr m c = (m ((c : Thread nD τ).loc main_arg6)) := V_main_arg6 m c
  funext y
  obtain ⟨i, j, rfl⟩ : ∃ (i : Fin 256) (j : Fin 512), y = ix2 i j := ⟨y 0, y 1, eq_ix2 y⟩
  rw [val_main_v105_apply, val_main_v102_apply, val_main_v104_apply, val_main_v103_apply, projected_apply]
  unfold projAt
  rw [bias_entry, ea, ew]
  have el : ∀ k : Fin 32768, lidx_main_v102 (ix2 i j) k = ix2 i k := fun k =>
    funext fun a => match a with | ⟨0, _⟩ => rfl | ⟨1, _⟩ => rfl
  have er : ∀ k : Fin 32768, ridx_main_v102 (ix2 i j) k = ix2 k j := fun k =>
    funext fun a => match a with | ⟨0, _⟩ => rfl | ⟨1, _⟩ => rfl
  have eb : idx_main_v103 (idx_main_v104 (ix2 i j)) = ix1 j :=
    funext fun a => match a with | ⟨0, _⟩ => rfl
  simp only [el, er, eb]
  rfl

end Cert.KernelIdeal.Proj

end
-- ==== Proof.lean ====
/-
  The final projection of a two-layer graph network, computed block by block, is the reference's projection.

  Both programs run the same two graph-convolution layers on the host and reshape the node embeddings to a
  [256, 32768] matrix A.  The reference then takes A·W + b with W the [32768, 512] weights and b the bias, broadcast
  over the rows.  The kernel cuts the 32768-long contraction into eight blocks of 4096: it zeroes a [256, 512]
  accumulator at the first grid point, adds one block's product A_t·W_t at every point (its operands narrowed to bf16
  first, which changes nothing once floats are read as extended reals), and after the last block stores
  accumulator + b.  Entry (i, j) of the result is therefore ((0 + s₀) + s₁) + … + s₇ + b(j) with s_t the sum of the
  products A(i, n)·W(n, j) over block t; regrouping a finite sum of extended reals is always allowed, so this is
  ∑ₙ A(i, n)·W(n, j) + b(j), the reference's entry.  No input needs to be finite for that.

  Modules: BlockSum (a sum cut into equal blocks), Pieces (what one grid point leaves in the accumulator and in the
  output block, for each control case), Payload (the body's arithmetic at one entry), Blocks (which entries of A and W
  a grid point reads), Accumulate (the accumulator after each point, by induction on the point), Result (the result
  array is the projection), HostPrefix (the kernel's A and bias row are the reference's stages of the same
  arguments), RefBridge (the reference's last stage is the projection).  The kernel's frames are the generated ones;
  the reference's run is the generated run module, in a copy with the float family written out where the generated
  text left it undetermined (RefRun, with RefRead over it).
-/
import proofs.«121929_j54752243089440_1_alg».proof.Defs
import proofs.«121929_j54752243089440_1_alg».proof.Proof.Gen.Kernel
import proofs.«121929_j54752243089440_1_alg».proof.Proof.Gen.Kernel.Skeleton
import proofs.«121929_j54752243089440_1_alg».proof.Proof.Gen.Kernel.Launch
import proofs.«121929_j54752243089440_1_alg».proof.Proof.Gen.Kernel.Points
import proofs.«121929_j54752243089440_1_alg».proof.Proof.Gen.Kernel.Frame
import proofs.«121929_j54752243089440_1_alg».proof.Proof.Gen.KernelIdeal
import proofs.«121929_j54752243089440_1_alg».proof.Proof.Gen.KernelIdeal.Skeleton
import proofs.«121929_j54752243089440_1_alg».proof.Proof.Gen.KernelIdeal.Launch
import proofs.«121929_j54752243089440_1_alg».proof.Proof.Gen.KernelIdeal.Points
import proofs.«121929_j54752243089440_1_alg».proof.Proof.Gen.KernelIdeal.Frame
import proofs.«121929_j54752243089440_1_alg».proof.Proof.Gen.ReferenceIdeal
import proofs.«121929_j54752243089440_1_alg».proof.Proof.Gen.Pre_finite_inputs
import proofs.«121929_j54752243089440_1_alg».proof.Proof.Gen.KernelIdeal.Value
import proofs.«121929_j54752243089440_1_alg».proof.Proof.RefRun
import proofs.«121929_j54752243089440_1_alg».proof.Proof.RefRead
import proofs.«121929_j54752243089440_1_alg».proof.Proof.Result
import proofs.«121929_j54752243089440_1_alg».proof.Proof.RefBridge
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Over the extended reals the kernel's result array and the reference's result are both the projection
    A·W + b of arguments that agree. -/
theorem algebraic : Cert.algebraic_KernelIdeal_ReferenceIdeal := by
  intro m ρ m' ρ' _ hagree
  refine ⟨fun c => Cert.KernelIdeal.Proj.projected m c, Cert.KernelIdeal.Proj.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v105_eq, e0, e1, e2, e3, e4, e5, e6, e7]
  exact Cert.KernelIdeal.Proj.reference_is_projected m c

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
